-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S24x2048 : Shape := ⟨2, ![24, 2048]⟩
abbrev S24 : Shape := ⟨1, ![24]⟩
abbrev S24x3 : Shape := ⟨2, ![24, 3]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S24x2048 : S_.BroadcastsInDim S24x2048 (![] : Fin 0 → Fin S24x2048.rank)
  reducesTo_S24x2048_S_d0_1 : S24x2048.ReducesTo [0, 1] S_
  bcast_S_S24 : S_.BroadcastsInDim S24 (![] : Fin 0 → Fin S24.rank)
  reducesTo_S24_S_d0 : S24.ReducesTo [0] S_
  bcast_S_S24x3 : S_.BroadcastsInDim S24x3 (![] : Fin 0 → Fin S24x3.rank)
  reducesTo_S24x3_S_d0_1 : S24x3.ReducesTo [0, 1] S_

variable [Facts]

def fn_part1 {F : FTy → Type} [FloatOps F] (main_v13 : IVec S_ 1) (main_v16 : IVec S24x3 1) : IVec S_ 1 :=
  let main_c_5 : IVec S_ 1 := constantI S_ 1 1#1
  let main_v17 : IVec S_ 1 := (fun x v => Host.reduce IntOp.andi x v reducesTo_S24x3_S_d0_1 h_S_) main_v16 main_c_5
  let main_v18 : IVec S_ 1 := andi main_v13 main_v17
  main_v18

def fn {F : FTy → Type} [FloatOps F] (main_arg0 : FVec F S32768x2048 .f32) (main_arg1 : FVec F S24x2048 .f32) (main_arg2 : FVec F S24 .f32) (main_arg3 : FVec F S24x3 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S24x2048 .f32 := Host.absf main_arg1
  let main_cst_0 : FVec F S_ .f32 := constant S_ .f32 0x7F800000#32
  let main_v5 : FVec F S24x2048 .f32 := broadcastInDim S24x2048 ![] bcast_S_S24x2048 main_cst_0
  let main_v6 : IVec S24x2048 1 := cmpf .olt main_v4 main_v5
  let main_c_1 : IVec S_ 1 := constantI S_ 1 1#1
  let main_v7 : IVec S_ 1 := (fun x v => Host.reduce IntOp.andi x v reducesTo_S24x2048_S_d0_1 h_S_) main_v6 main_c_1
  let main_v8 : IVec S_ 1 := andi main_v3 main_v7
  let main_v9 : FVec F S24 .f32 := Host.absf main_arg2
  let main_cst_2 : FVec F S_ .f32 := constant S_ .f32 0x7F800000#32
  let main_v10 : FVec F S24 .f32 := broadcastInDim S24 ![] bcast_S_S24 main_cst_2
  let main_v11 : IVec S24 1 := cmpf .olt main_v9 main_v10
  let main_c_3 : IVec S_ 1 := constantI S_ 1 1#1
  let main_v12 : IVec S_ 1 := (fun x v => Host.reduce IntOp.andi x v reducesTo_S24_S_d0 h_S_) main_v11 main_c_3
  let main_v13 : IVec S_ 1 := andi main_v8 main_v12
  let main_v14 : FVec F S24x3 .f32 := Host.absf main_arg3
  let main_cst_4 : FVec F S_ .f32 := constant S_ .f32 0x7F800000#32
  let main_v15 : FVec F S24x3 .f32 := broadcastInDim S24x3 ![] bcast_S_S24x3 main_cst_4
  let main_v16 : IVec S24x3 1 := cmpf .olt main_v14 main_v15
  fn_part1 (F := F) main_v13 main_v16
-- ==== Kernel.lean ====
abbrev S32768x2048 : Shape := ⟨2, ![32768, 2048]⟩
abbrev S24x2048 : Shape := ⟨2, ![24, 2048]⟩
abbrev S24 : Shape := ⟨1, ![24]⟩
abbrev S24x3 : Shape := ⟨2, ![24, 3]⟩
abbrev S2048x24 : Shape := ⟨2, ![2048, 24]⟩
abbrev S1x24 : Shape := ⟨2, ![1, 24]⟩
abbrev S24x1 : Shape := ⟨2, ![24, 1]⟩
abbrev S32768x24 : Shape := ⟨2, ![32768, 24]⟩
abbrev S1024x2048 : Shape := ⟨2, ![1024, 2048]⟩
abbrev S1024x24 : Shape := ⟨2, ![1024, 24]⟩

abbrev nBuf : Space → Nat
  | .hbm => 17
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S24x2048, .f32⟩
  | .hbm, ⟨2, _⟩ => ⟨S24, .f32⟩
  | .hbm, ⟨3, _⟩ => ⟨S24x3, .f32⟩
  | .hbm, ⟨4, _⟩ => ⟨S2048x24, .f32⟩
  | .hbm, ⟨5, _⟩ => ⟨S1x24, .f32⟩
  | .hbm, ⟨6, _⟩ => ⟨S24x1, .f32⟩
  | .hbm, ⟨7, _⟩ => ⟨S24, .f32⟩
  | .hbm, ⟨8, _⟩ => ⟨S24x1, .f32⟩
  | .hbm, ⟨9, _⟩ => ⟨S24, .f32⟩
  | .hbm, ⟨10, _⟩ => ⟨S24, .f32⟩
  | .hbm, ⟨11, _⟩ => ⟨S1x24, .f32⟩
  | .hbm, ⟨12, _⟩ => ⟨S24, .f32⟩
  | .hbm, ⟨13, _⟩ => ⟨S24, .f32⟩
  | .hbm, ⟨14, _⟩ => ⟨S24, .f32⟩
  | .hbm, ⟨15, _⟩ => ⟨S1x24, .f32⟩
  | .hbm, ⟨16, _⟩ => ⟨S32768x24, .f32⟩
  | .local _ .vmem, ⟨0, _⟩ => ⟨S1024x2048, .f32⟩
  | .local _ .vmem, ⟨1, _⟩ => ⟨S1024x2048, .f32⟩
  | .local _ .vmem, ⟨2, _⟩ => ⟨S2048x24, .f32⟩
  | .local _ .vmem, ⟨3, _⟩ => ⟨S1x24, .f32⟩
  | .local _ .vmem, ⟨4, _⟩ => ⟨S1x24, .f32⟩
  | .local _ .vmem, ⟨5, _⟩ => ⟨S1x24, .f32⟩
  | .local _ .vmem, ⟨6, _⟩ => ⟨S1024x24, .f32⟩
  | .local _ .vmem, ⟨7, _⟩ => ⟨S1024x24, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x24 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S24x2048_S2048x24_1_0 : S24x2048.Transposes [1, 0] S2048x24
  shapeCasts_S24_S1x24 : S24.ShapeCasts S1x24
  slices_S24x3_S24x1_0_0 : S24x3.Slices ![0, 0] S24x1
  shapeCasts_S24x1_S24 : S24x1.ShapeCasts S24
  slices_S24x3_S24x1_0_1 : S24x3.Slices ![0, 1] S24x1
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x24_S2048x24_0_0 : ∀ a, (![0, 0] : Fin 2 → Nat) a + S2048x24.size a ≤ S2048x24.size a
  h_S2048x24 : 0 < S2048x24.numel
  shapeCasts_S2048x24_S2048x24 : S2048x24.ShapeCasts S2048x24
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S1024x24 : S1x24.Broadcasts S1024x24
  inb_S1024x24_S1024x24_0_0 : ∀ a, (![0, 0] : Fin 2 → Nat) a + S1024x24.size a ≤ S1024x24.size a
  h_S1024x24 : 0 < S1024x24.numel
  dot_S1024x2048_S2048x24_S1024x24_1_0_0_1_n_n_wf : DotDims.WF S1024x2048 S2048x24 S1024x24 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x24.size a ≤ S2048x24.size a
  hwx0_1 : ∀ i : grid0.Coords, EltTy.bits .f32 = 32 ∨ (Rect.block (s := S2048x24) S2048x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x24.size a ≤ S1x24.size a
  hwx0_2 : ∀ i : grid0.Coords, EltTy.bits .f32 = 32 ∨ (Rect.block (s := S1x24) S1x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x24.size a ≤ S1x24.size a
  hwx0_3 : ∀ i : grid0.Coords, EltTy.bits .f32 = 32 ∨ (Rect.block (s := S1x24) S1x24.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x24.size a ≤ S1x24.size a
  hwx0_4 : ∀ i : grid0.Coords, EltTy.bits .f32 = 32 ∨ (Rect.block (s := S1x24) S1x24.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x24.size a ≤ S32768x24.size a
  hwx0_5 : ∀ i : grid0.Coords, EltTy.bits .f32 = 32 ∨ (Rect.block (s := S32768x24) S1024x24.size (cc0_transform_5 i) (hinb0_5 i)).WholeWords (EltTy.packing .f32)

variable [Facts₀]

def dot_S1024x2048_S2048x24_S1024x24_1_0_0_1_n_n : DotDims S1024x2048 S2048x24 S1024x24 where
  lhsContracting := [1]
  rhsContracting := [0]
  lhsNonContracting := [0]
  rhsNonContracting := [1]
  lhsBatch := []
  rhsBatch := []
  wf := dot_S1024x2048_S2048x24_S1024x24_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x24.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x24.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x24.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S24x2048 : Shape := ⟨2, ![24, 2048]⟩
abbrev S24 : Shape := ⟨1, ![24]⟩
abbrev S24x3 : Shape := ⟨2, ![24, 3]⟩
abbrev S32768x24 : Shape := ⟨2, ![32768, 24]⟩
abbrev S1x24 : Shape := ⟨2, ![1, 24]⟩
abbrev S24x1 : Shape := ⟨2, ![24, 1]⟩

abbrev nBuf : Space → Nat
  | .hbm => 25
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S24x2048, .f32⟩
  | .hbm, ⟨2, _⟩ => ⟨S24, .f32⟩
  | .hbm, ⟨3, _⟩ => ⟨S24x3, .f32⟩
  | .hbm, ⟨4, _⟩ => ⟨S32768x24, .f32⟩
  | .hbm, ⟨5, _⟩ => ⟨S1x24, .f32⟩
  | .hbm, ⟨6, _⟩ => ⟨S32768x24, .f32⟩
  | .hbm, ⟨7, _⟩ => ⟨S32768x24, .f32⟩
  | .hbm, ⟨8, _⟩ => ⟨S24x1, .f32⟩
  | .hbm, ⟨9, _⟩ => ⟨S24, .f32⟩
  | .hbm, ⟨10, _⟩ => ⟨S24x1, .f32⟩
  | .hbm, ⟨11, _⟩ => ⟨S24, .f32⟩
  | .hbm, ⟨12, _⟩ => ⟨S32768x24, .f32⟩
  | .hbm, ⟨13, _⟩ => ⟨S24, .f32⟩
  | .hbm, ⟨14, _⟩ => ⟨S1x24, .f32⟩
  | .hbm, ⟨15, _⟩ => ⟨S32768x24, .f32⟩
  | .hbm, ⟨16, _⟩ => ⟨S32768x24, .f32⟩
  | .hbm, ⟨17, _⟩ => ⟨S32768x24, .f32⟩
  | .hbm, ⟨18, _⟩ => ⟨S24, .f32⟩
  | .hbm, ⟨19, _⟩ => ⟨S24, .f32⟩
  | .hbm, ⟨20, _⟩ => ⟨S24, .f32⟩
  | .hbm, ⟨21, _⟩ => ⟨S1x24, .f32⟩
  | .hbm, ⟨22, _⟩ => ⟨S32768x24, .f32⟩
  | .hbm, ⟨23, _⟩ => ⟨S32768x24, .f32⟩
  | .hbm, ⟨24, _⟩ => ⟨S32768x24, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]

class Facts₀ : Prop where
  bcast_S24_S1x24_1 : S24.BroadcastsInDim S1x24 (![1] : Fin 1 → Fin S1x24.rank)
  bcast_S1x24_S32768x24_0_1 : S1x24.BroadcastsInDim S32768x24 (![0, 1] : Fin 2 → Fin S32768x24.rank)
  slices_S24x3_S24x1_0_0 : S24x3.Slices ![0, 0] S24x1
  shapeCasts_S24x1_S24 : S24x1.ShapeCasts S24
  slices_S24x3_S24x1_0_1 : S24x3.Slices ![0, 1] S24x1
  dot_S32768x2048_S24x2048_S32768x24_1_1_0_0_n_n_wf : DotDims.WF S32768x2048 S24x2048 S32768x24 [1] [1] [0] [0] [] []

variable [Facts₀]

def dot_S32768x2048_S24x2048_S32768x24_1_1_0_0_n_n : DotDims S32768x2048 S24x2048 S32768x24 where
  lhsContracting := [1]
  rhsContracting := [1]
  lhsNonContracting := [0]
  rhsNonContracting := [0]
  lhsBatch := []
  rhsBatch := []
  wf := dot_S32768x2048_S24x2048_S32768x24_1_1_0_0_n_n_wf

class Facts : Prop extends Facts₀ where

variable [Facts]
-- ==== Proof.Spec.lean ====
/-
  The function both programs compute, stated once over the extended reals and over literal shapes.

  For a batch row `r` and a qubit `q` the encoding angle is the affine form
      a(r, q) = (∑ k, latent[r, k] · W[q, k]) + b[q],
  and the expectation of Pauli Z after RY(a) followed by the rotation with angles (φ, θ) = (params[q, 0], params[q, 1]) is
      z(r, q) = cos a · cos θ − sin a · (cos φ · sin θ).
  `cos` and `sin` are the extended-real ones (the real functions on finite arguments, the fixed junk value at the infinities);
  no algebraic law is applied anywhere, so nothing here asks the entries to be finite.
-/
import Idealize.ShloMosaic.PureOps.Ideal
import Idealize.ShloMosaic.Lib.ValueIdx

noncomputable section

namespace Cert.QubitZ

open Idealize.ShloMosaic Idealize.ShloMosaic.ValueIdx

/-- The shapes of the four arguments and of the result. -/
abbrev Lat : Shape := ⟨2, ![32768, 2048]⟩
abbrev Wgt : Shape := ⟨2, ![24, 2048]⟩
abbrev Bia : Shape := ⟨1, ![24]⟩
abbrev Par : Shape := ⟨2, ![24, 3]⟩
abbrev Res : Shape := ⟨2, ![32768, 24]⟩

/-- The encoding angle of qubit `q` for batch row `r`: the row of `latent` against the row of `W`, plus the bias. -/
def angle (x : Lat.Idx → EReal) (w : Wgt.Idx → EReal) (b : Bia.Idx → EReal) (r : Fin 32768) (q : Fin 24) : EReal :=
  (∑ k : Fin 2048, x (ix2 r k) * w (ix2 q k)) + b (ix1 q)

/-- The rotation applied to the state at angle `a`, from the two coefficients `c = cos θ` and `s = cos φ · sin θ`. -/
def zMix (a c s : EReal) : EReal :=
  Ideal.cos a * c - Ideal.sin a * s

/-- The Z expectation from an angle and the qubit's two rotation parameters. -/
def zOf (a φ θ : EReal) : EReal :=
  zMix a (Ideal.cos θ) (Ideal.cos φ * Ideal.sin θ)

/-- The whole result array: entry `(r, q)` is the Z expectation at the angle `a(r, q)` with qubit `q`'s parameters. -/
def zExp (x : Lat.Idx → EReal) (w : Wgt.Idx → EReal) (b : Bia.Idx → EReal) (p : Par.Idx → EReal) : Res.Idx → EReal :=
  fun i => zOf (angle x w b (i 0) (i 1)) (p (ix2 (i 1) (0 : Fin 3))) (p (ix2 (i 1) (1 : Fin 3)))

theorem zExp_apply (x : Lat.Idx → EReal) (w : Wgt.Idx → EReal) (b : Bia.Idx → EReal) (p : Par.Idx → EReal)
    (r : Fin 32768) (q : Fin 24) :
    zExp x w b p (ix2 r q) = zOf (angle x w b r q) (p (ix2 q (0 : Fin 3))) (p (ix2 q (1 : Fin 3))) := rfl

end Cert.QubitZ

end
-- ==== Proof.RefValue.lean ====
/-
  The reference computes the specification: read one operation at a time, entry `(r, q)` of its result is
  `cos a · cos θ − sin a · (cos φ · sin θ)` with `a = (∑ k, latent[r, k] · W[q, k]) + b[q]`,
  `φ = params[q, 0]` and `θ = params[q, 1]`: the contraction of the two second axes is the sum over `k`,
  the two broadcasts of a length-24 vector read it at the column `q`, and the slices and reshapes of
  `params` read its columns 0 and 1 at row `q`.
-/
import proofs.«172529_j65481071407766_1_alg».proof.Proof.Gen.ReferenceIdeal.Read
import proofs.«172529_j65481071407766_1_alg».proof.Proof.Spec

noncomputable section

namespace Cert.QubitZ.Ref

open Cert.ReferenceIdeal Cert.ReferenceIdeal.Read Cert.QubitZ
open Idealize.ShloMosaic Idealize.ShloMosaic.ValueIdx

/-! ## Where each operation reads its operands, at the result index `(r, q)` -/

/-- The contraction reads `latent` at row `r`, -/
theorem latent_at (r : Fin 32768) (q : Fin 24) (k : Fin 2048) : lidx_main_v0 (ix2 r q) k = ix2 r k :=
  funext fun a => by match a with | ⟨0, _⟩ => rfl | ⟨1, _⟩ => rfl

/-- and `W` at row `q`. -/
theorem weight_at (r : Fin 32768) (q : Fin 24) (k : Fin 2048) : ridx_main_v0 (ix2 r q) k = ix2 q k :=
  funext fun a => by match a with | ⟨0, _⟩ => rfl | ⟨1, _⟩ => rfl

/-- The bias, broadcast along the batch, is read at `q`. -/
theorem bias_at (r : Fin 32768) (q : Fin 24) : idx_main_v1 (idx_main_v2 (ix2 r q)) = ix1 q :=
  funext fun a => by match a with | ⟨0, _⟩ => rfl

/-- `cos θ`, broadcast along the batch, reads `params` at `(q, 1)`. -/
theorem theta_cos_at (r : Fin 32768) (q : Fin 24) :
    idx_main_v6 (idx_main_v7 (idx_main_v10 (idx_main_v11 (ix2 r q)))) = ix2 q (1 : Fin 3) :=
  funext fun a => Fin.ext (by
    match a with
    | ⟨0, _⟩ => show q.val / 1 = q.val; exact Nat.div_one _
    | ⟨1, _⟩ => rfl)

/-- In the product `cos φ · sin θ`, `φ` is `params` at `(q, 0)` -/
theorem phi_at (r : Fin 32768) (q : Fin 24) :
    idx_main_v4 (idx_main_v5 (idx_main_v17 (idx_main_v18 (ix2 r q)))) = ix2 q (0 : Fin 3) :=
  funext fun a => Fin.ext (by
    match a with
    | ⟨0, _⟩ => show q.val / 1 = q.val; exact Nat.div_one _
    | ⟨1, _⟩ => rfl)

/-- and `θ` is `params` at `(q, 1)`. -/
theorem theta_sin_at (r : Fin 32768) (q : Fin 24) :
    idx_main_v6 (idx_main_v7 (idx_main_v17 (idx_main_v18 (ix2 r q)))) = ix2 q (1 : Fin 3) :=
  funext fun a => Fin.ext (by
    match a with
    | ⟨0, _⟩ => show q.val / 1 = q.val; exact Nat.div_one _
    | ⟨1, _⟩ => rfl)

/-! ## The reference's result is the specification -/

/-- The last stage of the reference, as a function of the four arguments, is `zExp` of them. -/
theorem result_eq (x0 : (⟨S32768x2048, .f32⟩ : BufTy).Contents (Elt Ideal)) (x1 : (⟨S24x2048, .f32⟩ : BufTy).Contents (Elt Ideal))
    (x2 : (⟨S24, .f32⟩ : BufTy).Contents (Elt Ideal)) (x3 : (⟨S24x3, .f32⟩ : BufTy).Contents (Elt Ideal)) :
    val_main_v20 (F := Ideal) x0 x1 x2 x3 = zExp x0 x1 x2 x3 := by
  funext i
  obtain ⟨r, q, rfl⟩ : ∃ (r : Fin 32768) (q : Fin 24), i = ix2 r q := ⟨i 0, i 1, eq_ix2 i⟩
  rw [zExp_apply]
  simp only [val_main_v20_apply, val_main_v12_apply, val_main_v19_apply, val_main_v8_apply, val_main_v13_apply,
    val_main_v3_apply, val_main_v0_apply, val_main_v2_apply, val_main_v1_apply,
    val_main_v11_apply, val_main_v10_apply, val_main_v9_apply, val_main_v7_apply, val_main_v6_apply,
    val_main_v18_apply, val_main_v17_apply, val_main_v16_apply, val_main_v14_apply, val_main_v15_apply,
    val_main_v5_apply, val_main_v4_apply,
    latent_at, weight_at, bias_at, theta_cos_at, phi_at, theta_sin_at]
  rfl

end Cert.QubitZ.Ref

end
-- ==== Proof.Body.lean ====
/-
  What the kernel body stores, read at one entry of its block. With `x` the 1024 × 2048 block of `latent`, `w` the
  2048 × 24 transposed weights, and `β`, `c`, `s` the three 1 × 24 rows (bias, `cos θ`, `cos φ · sin θ`), entry `(p, q)`
  of the stored value is `cos a · c[0, q] − sin a · s[0, q]` with `a = (∑ k, x[p, k] · w[k, q]) + β[0, q]`:
  the narrowing to bf16 is the identity on extended reals, the product into a zero accumulator is the plain sum over
  the contracted axis, and a row broadcast down the 1024 rows reads the row at column `q`.
-/
import proofs.«172529_j65481071407766_1_alg».proof.Proof.Gen.KernelIdeal.Skeleton
import proofs.«172529_j65481071407766_1_alg».proof.Proof.Spec
import Idealize.ShloMosaic.Lib.Pipeline.Value
import Idealize.ShloMosaic.Lib.ValueIdx
import Idealize.ShloMosaic.PureOps.Ideal.Laws

noncomputable section

namespace Cert.QubitZ.Body

open Cert.KernelIdeal Cert.KernelIdeal.Gen Cert.QubitZ
open Idealize.ShloMosaic Idealize.ShloMosaic.ValueIdx

/-! ## The product's operand indices, axis by axis -/

/-- The left operand is read at the output's row, -/
theorem lhs_row (i : S1024x24.Idx) (κ : dot_S1024x2048_S2048x24_S1024x24_1_0_0_1_n_n.contr.Idx) :
    (dot_S1024x2048_S2048x24_S1024x24_1_0_0_1_n_n.lhsIdx i κ 0).val = (i 0).val := by
  unfold DotDims.lhsIdx
  rw [dif_neg (show ¬(0 : Fin S1024x2048.rank) ∈ dot_S1024x2048_S2048x24_S1024x24_1_0_0_1_n_n.lhsBatch by decide), dif_pos (show (0 : Fin S1024x2048.rank) ∈ dot_S1024x2048_S2048x24_S1024x24_1_0_0_1_n_n.lhsNonContracting by decide)]
  rfl

/-- and at the contraction index on its second axis; -/
theorem lhs_contr (i : S1024x24.Idx) (κ : dot_S1024x2048_S2048x24_S1024x24_1_0_0_1_n_n.contr.Idx) :
    (dot_S1024x2048_S2048x24_S1024x24_1_0_0_1_n_n.lhsIdx i κ 1).val = (κ ⟨0, by decide⟩).val :=
  dot_S1024x2048_S2048x24_S1024x24_1_0_0_1_n_n.lhsIdx_val_of_single rfl i κ

/-- the right operand at the contraction index on its first axis, -/
theorem rhs_contr (i : S1024x24.Idx) (κ : dot_S1024x2048_S2048x24_S1024x24_1_0_0_1_n_n.contr.Idx) :
    (dot_S1024x2048_S2048x24_S1024x24_1_0_0_1_n_n.rhsIdx i κ 0).val = (κ ⟨0, by decide⟩).val :=
  dot_S1024x2048_S2048x24_S1024x24_1_0_0_1_n_n.rhsIdx_val_of_single rfl i κ

/-- and at the output's column. -/
theorem rhs_col (i : S1024x24.Idx) (κ : dot_S1024x2048_S2048x24_S1024x24_1_0_0_1_n_n.contr.Idx) :
    (dot_S1024x2048_S2048x24_S1024x24_1_0_0_1_n_n.rhsIdx i κ 1).val = (i 1).val := by
  unfold DotDims.rhsIdx
  rw [dif_neg (show ¬(1 : Fin S2048x24.rank) ∈ dot_S1024x2048_S2048x24_S1024x24_1_0_0_1_n_n.rhsBatch by decide), dif_pos (show (1 : Fin S2048x24.rank) ∈ dot_S1024x2048_S2048x24_S1024x24_1_0_0_1_n_n.rhsNonContracting by decide)]
  rfl

/-- The product into the zero accumulator, at `(p, q)`: the sum over `k` of row `p` of the left against column `q` of the right. -/
theorem product_at (x : FVec Ideal S1024x2048 .bf16) (w : FVec Ideal S2048x24 .bf16) (p : Fin 1024) (q : Fin 24) :
    matmul dot_S1024x2048_S2048x24_S1024x24_1_0_0_1_n_n none x w (constant (F := Ideal) S1024x24 .f32 0x00000000#32) (ix2 p q)
      = ∑ k : Fin 2048, x (ix2 p k) * w (ix2 k q) := by
  simp only [matmul]
  rw [Ideal.matmul_constant_zero_apply, ← Equiv.sum_comp (contrEquiv1 dot_S1024x2048_S2048x24_S1024x24_1_0_0_1_n_n 2048 rfl rfl).symm]
  refine Finset.sum_congr rfl fun k _ => ?_
  have hk := contrEquiv1_symm_val dot_S1024x2048_S2048x24_S1024x24_1_0_0_1_n_n 2048 rfl rfl k
  have el : dot_S1024x2048_S2048x24_S1024x24_1_0_0_1_n_n.lhsIdx (ix2 p q) ((contrEquiv1 dot_S1024x2048_S2048x24_S1024x24_1_0_0_1_n_n 2048 rfl rfl).symm k) = ix2 p k := funext fun a => Fin.ext (by
    match a with
    | ⟨0, _⟩ => exact lhs_row _ _
    | ⟨1, _⟩ => exact (lhs_contr _ _).trans hk)
  have er : dot_S1024x2048_S2048x24_S1024x24_1_0_0_1_n_n.rhsIdx (ix2 p q) ((contrEquiv1 dot_S1024x2048_S2048x24_S1024x24_1_0_0_1_n_n 2048 rfl rfl).symm k) = ix2 k q := funext fun a => Fin.ext (by
    match a with
    | ⟨0, _⟩ => exact (rhs_contr _ _).trans hk
    | ⟨1, _⟩ => exact rhs_col _ _)
  rw [el, er]

/-! ## A row broadcast down the block -/

/-- A 1 × 24 row broadcast to 1024 × 24 reads, at `(p, q)`, the row at column `q`. -/
theorem row_at (v : Vec Ideal S1x24 .f32) (p : Fin 1024) (q : Fin 24) :
    broadcastTo S1024x24 (shapeCast S1x24 v shapeCasts_S1x24_S1x24) broadcasts_S1x24_S1024x24 (ix2 p q) = v (ix2 (0 : Fin 1) q) := by
  rw [shapeCast_self]
  exact broadcastTo_apply v broadcasts_S1x24_S1024x24 (ix2 p q) (ix2 (0 : Fin 1) q) (fun a => match a with
    | ⟨0, _⟩ => by show 0 = if (1 : Nat) = 1 then 0 else p.val; rw [if_pos rfl]
    | ⟨1, _⟩ => by show q.val = if (24 : Nat) = 1 then 0 else q.val; rw [if_neg (by decide)])

/-! ## The stored value at an entry -/

theorem cos_at {s : Shape} {φ : FTy} (a : FVec Ideal s φ) (i : s.Idx) : cos a i = Ideal.cos (a i) := rfl
theorem sin_at {s : Shape} {φ : FTy} (a : FVec Ideal s φ) (i : s.Idx) : sin a i = Ideal.sin (a i) := rfl

/-- Entry `(p, q)` of what the body stores, from the five loaded blocks. -/
theorem stored_at (x : Vec Ideal S1024x2048 .f32) (w : Vec Ideal S2048x24 .f32) (β c s : Vec Ideal S1x24 .f32)
    (p : Fin 1024) (q : Fin 24) :
    k0_pay1 (F := Ideal) x w β c s (ix2 p q)
      = zMix ((∑ k : Fin 2048, x (ix2 p k) * w (ix2 k q)) + β (ix2 (0 : Fin 1) q)) (c (ix2 (0 : Fin 1) q)) (s (ix2 (0 : Fin 1) q)) := by
  unfold k0_pay1 zMix
  rw [subf_apply, mulf_apply, mulf_apply, cos_at, sin_at, addf_apply, product_at, row_at, row_at, row_at]
  simp only [truncf_apply, shapeCast_self]

end Cert.QubitZ.Body

end
-- ==== Proof.Entry.lean ====
/-
  What the kernel region finds in the four arrays the host lines before it wrote. With `W`, `b`, `params` the launch contents
  of the second, third and fourth argument:
    the transposed weights at `(k, q)` are `W[q, k]`;
    the bias laid out as a row, at `(0, q)`, is `b[q]`;
    the row of `cos θ`, at `(0, q)`, is `cos (params[q, 1])`;
    the row of `cos φ · sin θ`, at `(0, q)`, is `cos (params[q, 0]) · sin (params[q, 1])`.
  Each array is the composition of the host lines that produce it, read here at one index: a transpose swaps the two
  coordinates, a reshape keeps the row-major position, a slice shifts a coordinate by its offset.
-/
import proofs.«172529_j65481071407766_1_alg».proof.Proof.Gen.KernelIdeal.Frame
import proofs.«172529_j65481071407766_1_alg».proof.Proof.Spec
import Idealize.ShloMosaic.Lib.StableHlo.Run
import Idealize.ShloMosaic.Lib.Pipeline.Value
import Idealize.ShloMosaic.Lib.ValueIdx

noncomputable section

namespace Cert.QubitZ.Entry

open Cert.KernelIdeal Cert.KernelIdeal.Gen Cert.QubitZ
open Idealize.ShloMosaic Idealize.ShloMosaic.TcCoe Idealize.SL.Sem Idealize.ShloMosaic.StableHlo Idealize.ShloMosaic.ValueIdx

/-! ## Layouts of a length-24 vector and of the columns of `params` -/

/-- A length-24 vector laid out as a 1 × 24 row is read at its column. -/
theorem row_of_vec (y : S24.Idx → EReal) (q : Fin 24) :
    shapeCast S1x24 y shapeCasts_S24_S1x24 (ix2 (0 : Fin 1) q) = y (ix1 q) :=
  shapeCast_apply y shapeCasts_S24_S1x24 (ix2 (0 : Fin 1) q) (ix1 q)
    (by rewrite [Shape.rowMajor_val_two, Shape.rowMajor_val_one]; show q.val = 0 * 24 + q.val; omega)

/-- Column 0 of `params`, as a length-24 vector, at `q`. -/
theorem param_col0 (x : S24x3.Idx → EReal) (q : Fin 24) :
    shapeCast S24 (extractStridedSlice S24x1 ![0, 0] x slices_S24x3_S24x1_0_0) shapeCasts_S24x1_S24 (ix1 q) = x (ix2 q (0 : Fin 3)) := by
  refine (shapeCast_apply _ shapeCasts_S24x1_S24 (ix1 q) (ix2 q (0 : Fin 1))
    (by rewrite [Shape.rowMajor_val_two, Shape.rowMajor_val_one]; show q.val * 1 + 0 = q.val; omega)).trans ?_
  exact extractStridedSlice_apply ![0, 0] x slices_S24x3_S24x1_0_0 (ix2 q (0 : Fin 1)) (ix2 q (0 : Fin 3)) (fun a => match a with
    | ⟨0, _⟩ => by show q.val = 0 + q.val; omega
    | ⟨1, _⟩ => by show 0 = 0 + 0; rfl)

/-- Column 1 of `params`, as a length-24 vector, at `q`. -/
theorem param_col1 (x : S24x3.Idx → EReal) (q : Fin 24) :
    shapeCast S24 (extractStridedSlice S24x1 ![0, 1] x slices_S24x3_S24x1_0_1) shapeCasts_S24x1_S24 (ix1 q) = x (ix2 q (1 : Fin 3)) := by
  refine (shapeCast_apply _ shapeCasts_S24x1_S24 (ix1 q) (ix2 q (0 : Fin 1))
    (by rewrite [Shape.rowMajor_val_two, Shape.rowMajor_val_one]; show q.val * 1 + 0 = q.val; omega)).trans ?_
  exact extractStridedSlice_apply ![0, 1] x slices_S24x3_S24x1_0_1 (ix2 q (0 : Fin 1)) (ix2 q (1 : Fin 3)) (fun a => match a with
    | ⟨0, _⟩ => by show q.val = 0 + q.val; omega
    | ⟨1, _⟩ => by show 1 = 1 + 0; rfl)

/-! ## The four arrays as the region finds them -/

variable (m : (ℓ : Loc nD τ sig) → Buf (Elt Ideal) ℓ)

/-- The transposed weights at `(k, q)` are `W[q, k]`. -/
theorem weights_found (c : Dev nD) (k : Fin 2048) (q : Fin 24) :
    (V m c main_v0 : S2048x24.Idx → EReal) (ix2 k q) = (m ((c : Thread nD τ).loc main_arg1) : S24x2048.Idx → EReal) (ix2 q k) := by
  have e : (V m c main_v0 : S2048x24.Idx → EReal)
      = transpose S2048x24 [1, 0] (m ((c : Thread nD τ).loc main_arg1)) transposes_S24x2048_S2048x24_1_0 := by
    dsimp only [V, hostOps0]; after_results <;> rfl
  rw [e]
  exact transpose_apply [1, 0] _ transposes_S24x2048_S2048x24_1_0 (ix2 k q) (ix2 q k)
    (fun b => match b with | ⟨0, _⟩ => rfl | ⟨1, _⟩ => rfl)

/-- The bias row at `(0, q)` is `b[q]`. -/
theorem bias_found (c : Dev nD) (q : Fin 24) :
    (V m c main_v1 : S1x24.Idx → EReal) (ix2 (0 : Fin 1) q) = (m ((c : Thread nD τ).loc main_arg2) : S24.Idx → EReal) (ix1 q) := by
  have e : (V m c main_v1 : S1x24.Idx → EReal) = shapeCast S1x24 (m ((c : Thread nD τ).loc main_arg2)) shapeCasts_S24_S1x24 := by
    dsimp only [V, hostOps0]; after_results <;> rfl
  rw [e, row_of_vec]

/-- The row of `cos θ` at `(0, q)`. -/
theorem cos_theta_found (c : Dev nD) (q : Fin 24) :
    (V m c main_v7 : S1x24.Idx → EReal) (ix2 (0 : Fin 1) q)
      = Ideal.cos ((m ((c : Thread nD τ).loc main_arg3) : S24x3.Idx → EReal) (ix2 q (1 : Fin 3))) := by
  have e : (V m c main_v7 : S1x24.Idx → EReal)
      = shapeCast S1x24 (Host.cos (F := Ideal) (φ := .f32) (shapeCast S24 (extractStridedSlice S24x1 ![0, 1] (m ((c : Thread nD τ).loc main_arg3)) slices_S24x3_S24x1_0_1) shapeCasts_S24x1_S24)) shapeCasts_S24_S1x24 := by
    dsimp only [V, hostOps0]; after_results <;> rfl
  rw [e, row_of_vec]
  show Ideal.cos (shapeCast S24 (extractStridedSlice S24x1 ![0, 1] (m ((c : Thread nD τ).loc main_arg3)) slices_S24x3_S24x1_0_1) shapeCasts_S24x1_S24 (ix1 q)) = _
  rw [param_col1]

/-- The row of `cos φ · sin θ` at `(0, q)`. -/
theorem mix_found (c : Dev nD) (q : Fin 24) :
    (V m c main_v11 : S1x24.Idx → EReal) (ix2 (0 : Fin 1) q)
      = Ideal.cos ((m ((c : Thread nD τ).loc main_arg3) : S24x3.Idx → EReal) (ix2 q (0 : Fin 3)))
        * Ideal.sin ((m ((c : Thread nD τ).loc main_arg3) : S24x3.Idx → EReal) (ix2 q (1 : Fin 3))) := by
  have e : (V m c main_v11 : S1x24.Idx → EReal)
      = shapeCast S1x24 (mulf (F := Ideal) (φ := .f32)
          (Host.cos (F := Ideal) (φ := .f32) (shapeCast S24 (extractStridedSlice S24x1 ![0, 0] (m ((c : Thread nD τ).loc main_arg3)) slices_S24x3_S24x1_0_0) shapeCasts_S24x1_S24))
          (Host.sin (F := Ideal) (φ := .f32) (shapeCast S24 (extractStridedSlice S24x1 ![0, 1] (m ((c : Thread nD τ).loc main_arg3)) slices_S24x3_S24x1_0_1) shapeCasts_S24x1_S24))) shapeCasts_S24_S1x24 := by
    dsimp only [V, hostOps0]; after_results <;> rfl
  rw [e, row_of_vec]
  show Ideal.cos (shapeCast S24 (extractStridedSlice S24x1 ![0, 0] (m ((c : Thread nD τ).loc main_arg3)) slices_S24x3_S24x1_0_0) shapeCasts_S24x1_S24 (ix1 q))
      * Ideal.sin (shapeCast S24 (extractStridedSlice S24x1 ![0, 1] (m ((c : Thread nD τ).loc main_arg3)) slices_S24x3_S24x1_0_1) shapeCasts_S24x1_S24 (ix1 q)) = _
  rw [param_col0, param_col1]

end Cert.QubitZ.Entry

end
-- ==== Proof.Blocks.lean ====
/-
  From the 32 row blocks to the whole result. Grid point `t` loads rows `1024 t … 1024 t + 1023` of `latent` and the four
  resident arrays whole, and writes back rows `1024 t … 1024 t + 1023` of the result. Entry `(p, q)` of what it writes is
  the specification at `(1024 t + p, q)`: the stored value's row–column sum runs over row `1024 t + p` of `latent` against
  row `q` of `W`, and the three rows it reads at column `q` are `b[q]`, `cos θ_q` and `cos φ_q · sin θ_q`. Row `r` of the
  result lies in the block of point `r / 1024`, so the blocks cover the array and it ends holding the specification.
-/
import proofs.«172529_j65481071407766_1_alg».proof.Proof.Gen.KernelIdeal.Value
import proofs.«172529_j65481071407766_1_alg».proof.Proof.Spec
import proofs.«172529_j65481071407766_1_alg».proof.Proof.Body
import proofs.«172529_j65481071407766_1_alg».proof.Proof.Entry
import Idealize.ShloMosaic.Lib.Pipeline.Value
import Idealize.ShloMosaic.Lib.ValueIdx

noncomputable section

namespace Cert.QubitZ.Blocks

open Cert.KernelIdeal Cert.KernelIdeal.Gen Cert.QubitZ
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## Which block each window is on -/

/-- At point `t` the `latent` window and the result window are on row block `t`; the four resident windows stay on their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `1024 t + p` of the array. -/
def rowOf (t : Fin cfg0.N) (p : Fin 1024) : Fin 32768 :=
  ⟨t.val * 1024 + p.val, by
    have h : t.val < 32 := Nat.lt_of_lt_of_eq t.isLt (show cfg0.N = 32 from N_0)
    have := p.isLt; omega⟩

/-! ## The five loaded blocks, entry by entry -/

theorem latent_read (c : Dev nD) (t : Fin cfg0.N) (p : Fin 1024) (k : Fin 2048) :
    (iblk m c 0 t : Vec Ideal S1024x2048 .f32) (ix2 p k) = ((m ((c : Thread nD τ).loc main_arg0)) : S32768x2048.Idx → EReal) (ix2 (rowOf t p) k) := by
  show V m c main_arg0 (((cfg0.win 0).blk t).view.emb (ix2 p k)) = _
  rw [V_main_arg0]
  obtain ⟨h0, h1, -⟩ := block_indices t
  refine congrArg ((m ((c : Thread nD τ).loc main_arg0)) : S32768x2048.Idx → EReal) (funext fun a => Fin.ext ?_)
  match a with
  | ⟨0, _⟩ => show win0_0.index t (0 : Fin 2) * 1024 + 1 * p.val = t.val * 1024 + p.val; rw [h0]; omega
  | ⟨1, _⟩ => show win0_0.index t (1 : Fin 2) * 2048 + 1 * k.val = k.val; rw [h1]; omega

theorem weight_read (c : Dev nD) (t : Fin cfg0.N) (k : Fin 2048) (q : Fin 24) :
    (iblk m c 1 t : Vec Ideal S2048x24 .f32) (ix2 k q) = ((m ((c : Thread nD τ).loc main_arg1)) : S24x2048.Idx → EReal) (ix2 q k) := by
  show V m c main_v0 (((cfg0.win 1).blk t).view.emb (ix2 k q)) = _
  obtain ⟨-, -, h0, h1, -⟩ := block_indices t
  have e : ((cfg0.win 1).blk t).view.emb (ix2 k q) = (ix2 k q : S2048x24.Idx) := funext fun a => Fin.ext (by
    match a with
    | ⟨0, _⟩ => show win0_1.index t (0 : Fin 2) * 2048 + 1 * k.val = k.val; rw [h0]; omega
    | ⟨1, _⟩ => show win0_1.index t (1 : Fin 2) * 24 + 1 * q.val = q.val; rw [h1]; omega)
  rw [e]
  exact Entry.weights_found m c k q

theorem bias_read (c : Dev nD) (t : Fin cfg0.N) (q : Fin 24) :
    (iblk m c 2 t : Vec Ideal S1x24 .f32) (ix2 (0 : Fin 1) q) = ((m ((c : Thread nD τ).loc main_arg2)) : S24.Idx → EReal) (ix1 q) := by
  show V m c main_v1 (((cfg0.win 2).blk t).view.emb (ix2 (0 : Fin 1) q)) = _
  obtain ⟨-, -, -, -, h0, h1, -⟩ := block_indices t
  have e : ((cfg0.win 2).blk t).view.emb (ix2 (0 : Fin 1) q) = (ix2 (0 : Fin 1) q : S1x24.Idx) := funext fun a => Fin.ext (by
    match a with
    | ⟨0, _⟩ => show win0_2.index t (0 : Fin 2) * 1 + 1 * 0 = 0; rw [h0]
    | ⟨1, _⟩ => show win0_2.index t (1 : Fin 2) * 24 + 1 * q.val = q.val; rw [h1]; omega)
  rw [e]
  exact Entry.bias_found m c q

theorem cos_theta_read (c : Dev nD) (t : Fin cfg0.N) (q : Fin 24) :
    (iblk m c 3 t : Vec Ideal S1x24 .f32) (ix2 (0 : Fin 1) q) = Ideal.cos (((m ((c : Thread nD τ).loc main_arg3)) : S24x3.Idx → EReal) (ix2 q (1 : Fin 3))) := by
  show V m c main_v7 (((cfg0.win 3).blk t).view.emb (ix2 (0 : Fin 1) q)) = _
  obtain ⟨-, -, -, -, -, -, h0, h1, -⟩ := block_indices t
  have e : ((cfg0.win 3).blk t).view.emb (ix2 (0 : Fin 1) q) = (ix2 (0 : Fin 1) q : S1x24.Idx) := funext fun a => Fin.ext (by
    match a with
    | ⟨0, _⟩ => show win0_3.index t (0 : Fin 2) * 1 + 1 * 0 = 0; rw [h0]
    | ⟨1, _⟩ => show win0_3.index t (1 : Fin 2) * 24 + 1 * q.val = q.val; rw [h1]; omega)
  rw [e]
  exact Entry.cos_theta_found m c q

theorem mix_read (c : Dev nD) (t : Fin cfg0.N) (q : Fin 24) :
    (iblk m c 4 t : Vec Ideal S1x24 .f32) (ix2 (0 : Fin 1) q)
      = Ideal.cos (((m ((c : Thread nD τ).loc main_arg3)) : S24x3.Idx → EReal) (ix2 q (0 : Fin 3))) * Ideal.sin (((m ((c : Thread nD τ).loc main_arg3)) : S24x3.Idx → EReal) (ix2 q (1 : Fin 3))) := by
  show V m c main_v11 (((cfg0.win 4).blk t).view.emb (ix2 (0 : Fin 1) q)) = _
  obtain ⟨-, -, -, -, -, -, -, -, h0, h1, -⟩ := block_indices t
  have e : ((cfg0.win 4).blk t).view.emb (ix2 (0 : Fin 1) q) = (ix2 (0 : Fin 1) q : S1x24.Idx) := funext fun a => Fin.ext (by
    match a with
    | ⟨0, _⟩ => show win0_4.index t (0 : Fin 2) * 1 + 1 * 0 = 0; rw [h0]
    | ⟨1, _⟩ => show win0_4.index t (1 : Fin 2) * 24 + 1 * q.val = q.val; rw [h1]; omega)
  rw [e]
  exact Entry.mix_found m c q

/-- Entry `(p, q)` of the result block of point `t` sits at `(1024 t + p, q)` of the result. -/
theorem result_entry (t : Fin cfg0.N) (p : Fin 1024) (q : Fin 24) :
    ((cfg0.win 5).blk t).view.emb (ix2 p q) = (ix2 (rowOf t p) q : S32768x24.Idx) := by
  obtain ⟨-, -, -, -, -, -, -, -, -, -, h0, h1⟩ := block_indices t
  refine funext fun a => Fin.ext ?_
  match a with
  | ⟨0, _⟩ => show win0_5.index t (0 : Fin 2) * 1024 + 1 * p.val = t.val * 1024 + p.val; rw [h0]; omega
  | ⟨1, _⟩ => show win0_5.index t (1 : Fin 2) * 24 + 1 * q.val = q.val; rw [h1]; omega

/-! ## What a point writes back -/

/-- Point `t` writes back block `t` of the specification of the launch arguments. -/
theorem flushed_eq (c : Dev nD) (t : Fin cfg0.N) :
    (dats m 0 c).flushed 5 t = ((cfg0.win 5).blk t).view.read (Elt Ideal) (zExp (m ((c : Thread nD τ).loc main_arg0)) (m ((c : Thread nD τ).loc main_arg1)) (m ((c : Thread nD τ).loc main_arg2)) (m ((c : Thread nD τ).loc main_arg3))) := by
  rw [Cert.KernelIdeal.Value.flushed5]
  unfold out0_5
  rw [View.canon_unit_zero zero_offsets]
  simp only [View.ld_unit_zero (S := S1024x2048) zero_offsets, View.ld_unit_zero (S := S2048x24) zero_offsets,
    View.ld_unit_zero (S := S1x24) zero_offsets]
  refine funext fun (j : S1024x24.Idx) => ?_
  obtain ⟨p, q, rfl⟩ : ∃ (p : Fin 1024) (q : Fin 24), j = ix2 p q := ⟨j 0, j 1, eq_ix2 j⟩
  show k0_pay1 (F := Ideal) (iblk m c 0 t) (iblk m c 1 t) (iblk m c 2 t) (iblk m c 3 t) (iblk m c 4 t) (ix2 p q)
      = zExp (m ((c : Thread nD τ).loc main_arg0)) (m ((c : Thread nD τ).loc main_arg1)) (m ((c : Thread nD τ).loc main_arg2)) (m ((c : Thread nD τ).loc main_arg3)) (((cfg0.win 5).blk t).view.emb (ix2 p q))
  rw [result_entry, zExp_apply]
  refine (Body.stored_at (iblk m c 0 t) (iblk m c 1 t) (iblk m c 2 t) (iblk m c 3 t) (iblk m c 4 t) p q).trans ?_
  unfold zOf angle
  simp only [latent_read, weight_read, bias_read, cos_theta_read, mix_read]

/-! ## The blocks cover the result -/

/-- An index is in point `t`'s block iff each coordinate is in the block's range on its axis. -/
theorem mem_block (t : Fin cfg0.N) (i : S32768x24.Idx) :
    i ∈ ((cfg0.win 5).blk t).view.set ↔ ∀ a : Fin 2, win0_5.index t a * S1024x24.size a ≤ (i a).val ∧ (i a).val < win0_5.index t a * S1024x24.size a + S1024x24.size a := by
  show i ∈ ((View.whole main_v12).slice (win0_5.rect t)).set ↔ _
  rw [View.set_slice_whole, Rect.mem_set_unit]
  exact Iff.rfl

/-- Row `r` is in the block of point `r / 1024`, which writes back. -/
theorem covered (i : S32768x24.Idx) : ∃ t : Fin cfg0.N, (cfg0.win 5).flush t = true ∧ i ∈ ((cfg0.win 5).blk t).view.set := by
  have hN : cfg0.N = 32 := N_0
  have hi0 : (i 0).val < 32768 := (i 0).isLt
  have hi1 : (i 1).val < 24 := (i 1).isLt
  have ht : (i 0).val / 1024 < cfg0.N := by rw [hN]; omega
  refine ⟨⟨(i 0).val / 1024, ht⟩, flush0_5 _, ?_⟩
  rw [mem_block]
  obtain ⟨-, -, -, -, -, -, -, -, -, -, h0, h1⟩ := block_indices ⟨(i 0).val / 1024, ht⟩
  intro a
  match a with
  | ⟨0, _⟩ =>
    show win0_5.index ⟨(i 0).val / 1024, ht⟩ (0 : Fin 2) * 1024 ≤ (i 0).val ∧ (i 0).val < win0_5.index ⟨(i 0).val / 1024, ht⟩ (0 : Fin 2) * 1024 + 1024
    rw [h0]; show (i 0).val / 1024 * 1024 ≤ (i 0).val ∧ (i 0).val < (i 0).val / 1024 * 1024 + 1024; omega
  | ⟨1, _⟩ =>
    show win0_5.index ⟨(i 0).val / 1024, ht⟩ (1 : Fin 2) * 24 ≤ (i 1).val ∧ (i 1).val < win0_5.index ⟨(i 0).val / 1024, ht⟩ (1 : Fin 2) * 24 + 24
    rw [h1]; omega

/-- After the run the result array holds the specification of the launch arguments. -/
theorem final (c : Dev nD) : (dats m 0 c).arrAt 5 cfg0.N = zExp (m ((c : Thread nD τ).loc main_arg0)) (m ((c : Thread nD τ).loc main_arg1)) (m ((c : Thread nD τ).loc main_arg2)) (m ((c : Thread nD τ).loc main_arg3)) :=
  (dats m 0 c).arrAt_eq_of_cover 5 (zExp (m ((c : Thread nD τ).loc main_arg0)) (m ((c : Thread nD τ).loc main_arg1)) (m ((c : Thread nD τ).loc main_arg2)) (m ((c : Thread nD τ).loc main_arg3))) (fun t _ => flushed_eq m c t) covered

/-! ## The run -/

/-- Every weakly fair execution of the idealized kernel program terminates with the result at the specification of the
    launch arguments and the arguments unchanged. -/
theorem run : θ_run defs (onTc (τ := τ) (main (F := Ideal))) ⟨m, fun _ => 0, ρ⟩ fun r => ∀ c : Dev nD,
      r.2.mem ((c : Thread nD τ).loc main_v12) = zExp (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.QubitZ.Blocks

end
-- ==== Proof.lean ====
/-
  The kernel and its reference compute one function of `latent` (32768 × 2048), `W` (24 × 2048), `b` (24) and
  `params` (24 × 3): for batch row `r` and qubit `q`, with the encoding angle
      a = (∑ k, latent[r, k] · W[q, k]) + b[q]
  and the rotation angles `φ = params[q, 0]`, `θ = params[q, 1]`,
      result[r, q] = cos a · cos θ − sin a · (cos φ · sin θ)
  (`Cert.QubitZ.zExp`, Proof/Spec.lean).

  The reference forms `a` by one contraction of the two second axes and broadcasts the length-24 vectors `b`, `cos θ` and
  `cos φ · sin θ` along the batch (Proof/RefValue.lean). The kernel transposes `W`, lays `b`, `cos θ` and `cos φ · sin θ` out as
  1 × 24 rows on the host (Proof/Entry.lean), and at each of 32 grid points multiplies a 1024-row block of `latent` with the
  transposed weights into a zero accumulator, adds the bias row and mixes `cos a` and `sin a` with the two coefficient rows
  (Proof/Body.lean); the 32 row blocks tile the result (Proof/Blocks.lean). On the extended reals the narrowing of the
  product's operands to bf16 is the identity, the product into a zero accumulator and the host's contraction are the same
  sum over `k`, and the kernel's and the host's `cos` and `sin` are one function each; the two sides are the same term entry
  by entry, so no law of arithmetic is used and the finiteness of the inputs is never needed.
-/
import proofs.«172529_j65481071407766_1_alg».proof.Defs
import proofs.«172529_j65481071407766_1_alg».proof.Proof.Gen.Kernel
import proofs.«172529_j65481071407766_1_alg».proof.Proof.Gen.Kernel.Skeleton
import proofs.«172529_j65481071407766_1_alg».proof.Proof.Gen.Kernel.Launch
import proofs.«172529_j65481071407766_1_alg».proof.Proof.Gen.Kernel.Points
import proofs.«172529_j65481071407766_1_alg».proof.Proof.Gen.Kernel.Frame
import proofs.«172529_j65481071407766_1_alg».proof.Proof.Gen.KernelIdeal
import proofs.«172529_j65481071407766_1_alg».proof.Proof.Gen.KernelIdeal.Skeleton
import proofs.«172529_j65481071407766_1_alg».proof.Proof.Gen.KernelIdeal.Launch
import proofs.«172529_j65481071407766_1_alg».proof.Proof.Gen.KernelIdeal.Points
import proofs.«172529_j65481071407766_1_alg».proof.Proof.Gen.KernelIdeal.Frame
import proofs.«172529_j65481071407766_1_alg».proof.Proof.Gen.ReferenceIdeal
import proofs.«172529_j65481071407766_1_alg».proof.Proof.Gen.Pre_finite_inputs
import proofs.«172529_j65481071407766_1_alg».proof.Proof.Gen.KernelIdeal.Value
import proofs.«172529_j65481071407766_1_alg».proof.Proof.Gen.ReferenceIdeal.Run
import proofs.«172529_j65481071407766_1_alg».proof.Proof.Gen.ReferenceIdeal.Read
import proofs.«172529_j65481071407766_1_alg».proof.Proof.Spec
import proofs.«172529_j65481071407766_1_alg».proof.Proof.RefValue
import proofs.«172529_j65481071407766_1_alg».proof.Proof.Blocks
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the four arguments both programs end with the result at `zExp` of those arguments. -/
theorem algebraic : Cert.algebraic_KernelIdeal_ReferenceIdeal := by
  intro m ρ m' ρ' _ hagree
  refine ⟨_, Cert.QubitZ.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.QubitZ.Ref.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
